-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S64 : Shape := ⟨1, ![64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x32 .f32) (main_arg1 : FVec F S1x1x1x288x64 .f32) (main_arg2 : FVec F S64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x32 : Shape := ⟨4, ![8, 32, 32, 32]⟩
abbrev S1x1x1x288x64 : Shape := ⟨5, ![1, 1, 1, 288, 64]⟩
abbrev S64 : Shape := ⟨1, ![64]⟩
abbrev S9x32x64 : Shape := ⟨3, ![9, 32, 64]⟩
abbrev S9x64x32 : Shape := ⟨3, ![9, 64, 32]⟩
abbrev S8x30x30x64 : Shape := ⟨4, ![8, 30, 30, 64]⟩
abbrev S1x32x32x32 : Shape := ⟨4, ![1, 32, 32, 32]⟩
abbrev S1x30x30x64 : Shape := ⟨4, ![1, 30, 30, 64]⟩
abbrev S32x32x32 : Shape := ⟨3, ![32, 32, 32]⟩
abbrev S30x30x32 : Shape := ⟨3, ![30, 30, 32]⟩
abbrev S1x64x32 : Shape := ⟨3, ![1, 64, 32]⟩
abbrev S64x32 : Shape := ⟨2, ![64, 32]⟩
abbrev S30x30x1x32 : Shape := ⟨4, ![30, 30, 1, 32]⟩
abbrev S1x1x64x32 : Shape := ⟨4, ![1, 1, 64, 32]⟩
abbrev S30x30x64x32 : Shape := ⟨4, ![30, 30, 64, 32]⟩
abbrev S30x30x64 : Shape := ⟨3, ![30, 30, 64]⟩
abbrev S1x1x64 : Shape := ⟨3, ![1, 1, 64]⟩

abbrev nBuf : Space → Nat
  | .hbm => 6
  | .vmem => 6
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S9x32x64, .f32⟩
  | .hbm, ⟨4, _⟩ => ⟨S9x64x32, .f32⟩
  | .hbm, ⟨5, _⟩ => ⟨S8x30x30x64, .f32⟩
  | .local _ .vmem, ⟨0, _⟩ => ⟨S1x32x32x32, .f32⟩
  | .local _ .vmem, ⟨1, _⟩ => ⟨S1x32x32x32, .f32⟩
  | .local _ .vmem, ⟨2, _⟩ => ⟨S9x64x32, .f32⟩
  | .local _ .vmem, ⟨3, _⟩ => ⟨S64, .f32⟩
  | .local _ .vmem, ⟨4, _⟩ => ⟨S1x30x30x64, .f32⟩
  | .local _ .vmem, ⟨5, _⟩ => ⟨S1x30x30x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x30x30x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1x1x288x64_S9x32x64 : S1x1x1x288x64.ShapeCasts S9x32x64
  transposes_S9x32x64_S9x64x32_0_2_1 : S9x32x64.Transposes [0, 2, 1] S9x64x32
  inb_S1x32x32x32_S1x32x32x32_0_0_0_0 : ∀ a, (![0, 0, 0, 0] : Fin 4 → Nat) a + S1x32x32x32.size a ≤ S1x32x32x32.size a
  h_S1x32x32x32 : 0 < S1x32x32x32.numel
  shapeCasts_S1x32x32x32_S32x32x32 : S1x32x32x32.ShapeCasts S32x32x32
  inb_S64_S64_0 : ∀ a, (![0] : Fin 1 → Nat) a + S64.size a ≤ S64.size a
  h_S64 : 0 < S64.numel
  slices_S32x32x32_o0_0_0_S30x30x32 : S32x32x32.Slices ![0, 0, 0] S30x30x32
  inb_S9x64x32_S1x64x32_0_0_0 : ∀ a, (![0, 0, 0] : Fin 3 → Nat) a + S1x64x32.size a ≤ S9x64x32.size a
  h_S1x64x32 : 0 < S1x64x32.numel
  shapeCasts_S1x64x32_S64x32 : S1x64x32.ShapeCasts S64x32
  shapeCasts_S30x30x32_S30x30x1x32 : S30x30x32.ShapeCasts S30x30x1x32
  shapeCasts_S64x32_S1x1x64x32 : S64x32.ShapeCasts S1x1x64x32
  broadcasts_S30x30x1x32_S30x30x64x32 : S30x30x1x32.Broadcasts S30x30x64x32
  broadcasts_S1x1x64x32_S30x30x64x32 : S1x1x64x32.Broadcasts S30x30x64x32
  reduces_S30x30x64x32_S30x30x64 : S30x30x64x32.Reduces [3] S30x30x64
  slices_S32x32x32_o0_1_0_S30x30x32 : S32x32x32.Slices ![0, 1, 0] S30x30x32
  inb_S9x64x32_S1x64x32_1_0_0 : ∀ a, (![1, 0, 0] : Fin 3 → Nat) a + S1x64x32.size a ≤ S9x64x32.size a
  slices_S32x32x32_o0_2_0_S30x30x32 : S32x32x32.Slices ![0, 2, 0] S30x30x32
  inb_S9x64x32_S1x64x32_2_0_0 : ∀ a, (![2, 0, 0] : Fin 3 → Nat) a + S1x64x32.size a ≤ S9x64x32.size a
  slices_S32x32x32_o1_0_0_S30x30x32 : S32x32x32.Slices ![1, 0, 0] S30x30x32
  inb_S9x64x32_S1x64x32_3_0_0 : ∀ a, (![3, 0, 0] : Fin 3 → Nat) a + S1x64x32.size a ≤ S9x64x32.size a
  slices_S32x32x32_o1_1_0_S30x30x32 : S32x32x32.Slices ![1, 1, 0] S30x30x32
  inb_S9x64x32_S1x64x32_4_0_0 : ∀ a, (![4, 0, 0] : Fin 3 → Nat) a + S1x64x32.size a ≤ S9x64x32.size a
  slices_S32x32x32_o1_2_0_S30x30x32 : S32x32x32.Slices ![1, 2, 0] S30x30x32
  inb_S9x64x32_S1x64x32_5_0_0 : ∀ a, (![5, 0, 0] : Fin 3 → Nat) a + S1x64x32.size a ≤ S9x64x32.size a
  slices_S32x32x32_o2_0_0_S30x30x32 : S32x32x32.Slices ![2, 0, 0] S30x30x32
  inb_S9x64x32_S1x64x32_6_0_0 : ∀ a, (![6, 0, 0] : Fin 3 → Nat) a + S1x64x32.size a ≤ S9x64x32.size a
  slices_S32x32x32_o2_1_0_S30x30x32 : S32x32x32.Slices ![2, 1, 0] S30x30x32
  inb_S9x64x32_S1x64x32_7_0_0 : ∀ a, (![7, 0, 0] : Fin 3 → Nat) a + S1x64x32.size a ≤ S9x64x32.size a
  slices_S32x32x32_o2_2_0_S30x30x32 : S32x32x32.Slices ![2, 2, 0] S30x30x32
  inb_S9x64x32_S1x64x32_8_0_0 : ∀ a, (![8, 0, 0] : Fin 3 → Nat) a + S1x64x32.size a ≤ S9x64x32.size a
  shapeCasts_S64_S1x1x64 : S64.ShapeCasts S1x1x64
  broadcasts_S1x1x64_S30x30x64 : S1x1x64.Broadcasts S30x30x64
  inb_S1x30x30x64_S1x30x30x64_0_0_0_0 : ∀ a, (![0, 0, 0, 0] : Fin 4 → Nat) a + S1x30x30x64.size a ≤ S1x30x30x64.size a
  h_S1x30x30x64 : 0 < S1x30x30x64.numel
  shapeCasts_S1x30x30x64_S30x30x64 : S1x30x30x64.ShapeCasts S30x30x64
  shapeCasts_S30x30x64_S1x30x30x64 : S30x30x64.ShapeCasts S1x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x32.size a ≤ S8x32x32x32.size a
  hwx0_0 : ∀ i : grid0.Coords, EltTy.bits .f32 = 32 ∨ (Rect.block (s := S8x32x32x32) S1x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64x32.size a ≤ S9x64x32.size a
  hwx0_1 : ∀ i : grid0.Coords, EltTy.bits .f32 = 32 ∨ (Rect.block (s := S9x64x32) S9x64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x30x30x64.size a ≤ S8x30x30x64.size a
  hwx0_3 : ∀ i : grid0.Coords, EltTy.bits .f32 = 32 ∨ (Rect.block (s := S8x30x30x64) S1x30x30x64.size (cc0_transform_3 i) (hinb0_3 i)).WholeWords (EltTy.packing .f32)

variable [Facts₀]

abbrev win0_0 : Pipeline.Window sig grid0 :=
  Pipeline.Window.ofSpec (Memref.whole main_arg0) S1x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x30x30x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x1x32 : Shape := ⟨5, ![8, 30, 30, 1, 32]⟩
abbrev S8x30x30x9x32 : Shape := ⟨5, ![8, 30, 30, 9, 32]⟩
abbrev S8x30x30x288 : Shape := ⟨4, ![8, 30, 30, 288]⟩
abbrev S8x30x30x288x1 : Shape := ⟨5, ![8, 30, 30, 288, 1]⟩
abbrev S8x30x30x288x64 : Shape := ⟨5, ![8, 30, 30, 288, 64]⟩
abbrev S_ : Shape := ⟨0, ![]⟩
abbrev S8x30x30x64 : Shape := ⟨4, ![8, 30, 30, 64]⟩
abbrev S1x1x1x64 : Shape := ⟨4, ![1, 1, 1, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x1x32, .f32⟩
  | .hbm, ⟨13, _⟩ => ⟨S8x30x30x1x32, .f32⟩
  | .hbm, ⟨14, _⟩ => ⟨S8x30x30x1x32, .f32⟩
  | .hbm, ⟨15, _⟩ => ⟨S8x30x30x1x32, .f32⟩
  | .hbm, ⟨16, _⟩ => ⟨S8x30x30x1x32, .f32⟩
  | .hbm, ⟨17, _⟩ => ⟨S8x30x30x1x32, .f32⟩
  | .hbm, ⟨18, _⟩ => ⟨S8x30x30x1x32, .f32⟩
  | .hbm, ⟨19, _⟩ => ⟨S8x30x30x1x32, .f32⟩
  | .hbm, ⟨20, _⟩ => ⟨S8x30x30x1x32, .f32⟩
  | .hbm, ⟨21, _⟩ => ⟨S8x30x30x9x32, .f32⟩
  | .hbm, ⟨22, _⟩ => ⟨S8x30x30x288, .f32⟩
  | .hbm, ⟨23, _⟩ => ⟨S8x30x30x288x1, .f32⟩
  | .hbm, ⟨24, _⟩ => ⟨S8x30x30x288x64, .f32⟩
  | .hbm, ⟨25, _⟩ => ⟨S8x30x30x288x64, .f32⟩
  | .hbm, ⟨26, _⟩ => ⟨S8x30x30x288x64, .f32⟩
  | .hbm, ⟨27, _⟩ => ⟨S_, .f32⟩
  | .hbm, ⟨28, _⟩ => ⟨S8x30x30x64, .f32⟩
  | .hbm, ⟨29, _⟩ => ⟨S_, .f32⟩
  | .hbm, ⟨30, _⟩ => ⟨S8x30x30x64, .f32⟩
  | .hbm, ⟨31, _⟩ => ⟨S8x30x30x64, .f32⟩
  | .hbm, ⟨32, _⟩ => ⟨S1x1x1x64, .f32⟩
  | .hbm, ⟨33, _⟩ => ⟨S8x30x30x64, .f32⟩
  | .hbm, ⟨34, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  bcast_S8x30x30x32_S8x30x30x1x32_0_1_2_4 : S8x30x30x32.BroadcastsInDim S8x30x30x1x32 (![0, 1, 2, 4] : Fin 4 → Fin S8x30x30x1x32.rank)
  concatenates_S8x30x30x1x32_S8x30x30x1x32_S8x30x30x1x32_S8x30x30x1x32_S8x30x30x1x32_S8x30x30x1x32_S8x30x30x1x32_S8x30x30x1x32_S8x30x30x1x32_S8x30x30x9x32_d3 : Shape.Concatenates [S8x30x30x1x32, S8x30x30x1x32, S8x30x30x1x32, S8x30x30x1x32, S8x30x30x1x32, S8x30x30x1x32, S8x30x30x1x32, S8x30x30x1x32, S8x30x30x1x32] S8x30x30x9x32 3
  shapeCasts_S8x30x30x9x32_S8x30x30x288 : S8x30x30x9x32.ShapeCasts S8x30x30x288
  bcast_S8x30x30x288_S8x30x30x288x1_0_1_2_3 : S8x30x30x288.BroadcastsInDim S8x30x30x288x1 (![0, 1, 2, 3] : Fin 4 → Fin S8x30x30x288x1.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel
  bcast_S64_S1x1x1x64_3 : S64.BroadcastsInDim S1x1x1x64 (![3] : Fin 1 → Fin S1x1x1x64.rank)
  bcast_S1x1x1x64_S8x30x30x64_0_1_2_3 : S1x1x1x64.BroadcastsInDim S8x30x30x64 (![0, 1, 2, 3] : Fin 4 → Fin S8x30x30x64.rank)

variable [Facts₀]

class Facts : Prop extends Facts₀ where

variable [Facts]
-- ==== Proof.LibReduceSingle.lean ====
/-
  A lane minimum read at an index, at the exact values.

  The library reads a `vector.multi_reduction <maximumf>` over ONE axis as the fold of `max` over that axis's
  coordinates (PureOps/Ideal/Laws.lean, `multiReduction_maximumf_single`); this is the same statement for
  `<minimumf>`: at a result index `j` the reduction is the fold of `min`, from the accumulator's value, of the
  source at `j` with each coordinate `k` of the reduced axis inserted.  Any rank, axis and extents.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.KernelShift.lean ====
/-
  One window position of the tropical convolution, inside the kernel.

  For a window offset `(i, j)` the kernel slices the 32 × 32 × 32 image at rows `i … i+29` and columns
  `j … j+29`, lays the slice out as [30, 30, 1, 32] and the position's weight rows as [1, 1, 64, 32], broadcasts
  both to [30, 30, 64, 32] and adds: entry `(h, w, f, c)` of the sum is
      image (i + h, j + w, c) + weights (f, c).
  Its lane maximum (minimum) at `(h, w, f)` is therefore the maximum (minimum) over the 32 channels `c` of
  those sums, started from the reduction's neutral value.
-/
import proofs.«140560_j70489003262695_1_alg».proof.KernelIdeal
import proofs.«140560_j70489003262695_1_alg».proof.Proof.LibReduceSingle
import Idealize.ShloMosaic.Lib.Pipeline.Value
import Idealize.ShloMosaic.Lib.ValueIdx

noncomputable section

namespace Cert.KernelIdeal.Shift

open Cert.KernelIdeal Idealize.ShloMosaic Idealize.ShloMosaic.ValueIdx
open Facts₀ Facts

variable [Facts]

/-- The sum the kernel forms for the window offset `off`: the image's slice at `off` and the position's weight
    rows, both broadcast to [30, 30, 64, 32]. -/
abbrev shiftSum {F : FTy → Type} [FloatOps F] (off : Fin 3 → Nat) (hs : S32x32x32.Slices off S30x30x32)
    (img : FVec F S32x32x32 .f32) (wk : Vec F S1x64x32 .f32) : FVec F S30x30x64x32 .f32 :=
  addf (broadcastTo S30x30x64x32 (shapeCast S30x30x1x32 (extractStridedSlice S30x30x32 off img hs) shapeCasts_S30x30x32_S30x30x1x32) broadcasts_S30x30x1x32_S30x30x64x32)
    (broadcastTo S30x30x64x32 (shapeCast S1x1x64x32 (shapeCast S64x32 wk shapeCasts_S1x64x32_S64x32) shapeCasts_S64x32_S1x1x64x32) broadcasts_S1x1x64x32_S30x30x64x32)

/-- Entry `(h, w, f, c)` of that sum: the image at `(off₀ + h, off₁ + w, off₂ + c)` plus the weight at `(f, c)`. -/
theorem shiftSum_apply (off : Fin 3 → Nat) (hs : S32x32x32.Slices off S30x30x32)
    (img : FVec Ideal S32x32x32 .f32) (wk : Vec Ideal S1x64x32 .f32)
    (h w : Fin 30) (f : Fin 64) (c : Fin 32) (h' w' c' : Fin 32)
    (hh : h'.val = off 0 + h.val) (hw : w'.val = off 1 + w.val) (hc : c'.val = off 2 + c.val) :
    shiftSum off hs img wk (ix4 h w f c) = img (ix3 h' w' c') + wk (ix3 0 f c) := by
  show (broadcastTo S30x30x64x32 (shapeCast S30x30x1x32 (extractStridedSlice S30x30x32 off img hs) shapeCasts_S30x30x32_S30x30x1x32) broadcasts_S30x30x1x32_S30x30x64x32) (ix4 h w f c)
      + (broadcastTo S30x30x64x32 (shapeCast S1x1x64x32 (shapeCast S64x32 wk shapeCasts_S1x64x32_S64x32) shapeCasts_S64x32_S1x1x64x32) broadcasts_S1x1x64x32_S30x30x64x32) (ix4 h w f c) = _
  have hh30 : h.val < 30 := h.isLt
  have hw30 : w.val < 30 := w.isLt
  have hf64 : f.val < 64 := f.isLt
  have hc32 : c.val < 32 := c.isLt
  have e1 : (broadcastTo S30x30x64x32 (shapeCast S30x30x1x32 (extractStridedSlice S30x30x32 off img hs) shapeCasts_S30x30x32_S30x30x1x32) broadcasts_S30x30x1x32_S30x30x64x32) (ix4 h w f c)
      = img (ix3 h' w' c') := by
    refine (broadcastTo_apply _ _ (ix4 h w f c) (ix4 h w (0 : Fin 1) c) (fun a => match a with
      | ⟨0, _⟩ => rfl
      | ⟨1, _⟩ => rfl
      | ⟨2, _⟩ => rfl
      | ⟨3, _⟩ => rfl)).trans ?_
    refine (shapeCast_apply _ _ (ix4 h w (0 : Fin 1) c) (ix3 h w c) (by
      rw [Shape.rowMajor_val_three, Shape.rowMajor_val_four]
      show (h.val * 30 + w.val) * 32 + c.val = ((h.val * 30 + w.val) * 1 + 0) * 32 + c.val
      omega)).trans ?_
    exact extractStridedSlice_apply off img hs (ix3 h w c) (ix3 h' w' c') (fun a => match a with
      | ⟨0, _⟩ => hh
      | ⟨1, _⟩ => hw
      | ⟨2, _⟩ => hc)
  have e2 : (broadcastTo S30x30x64x32 (shapeCast S1x1x64x32 (shapeCast S64x32 wk shapeCasts_S1x64x32_S64x32) shapeCasts_S64x32_S1x1x64x32) broadcasts_S1x1x64x32_S30x30x64x32) (ix4 h w f c)
      = wk (ix3 0 f c) := by
    refine (broadcastTo_apply _ _ (ix4 h w f c) (ix4 (0 : Fin 1) (0 : Fin 1) f c) (fun a => match a with
      | ⟨0, _⟩ => rfl
      | ⟨1, _⟩ => rfl
      | ⟨2, _⟩ => rfl
      | ⟨3, _⟩ => rfl)).trans ?_
    refine (shapeCast_apply _ _ (ix4 (0 : Fin 1) (0 : Fin 1) f c) (ix2 f c) (by
      rw [Shape.rowMajor_val_two, Shape.rowMajor_val_four]
      show f.val * 32 + c.val = ((0 * 1 + 0) * 64 + f.val) * 32 + c.val
      omega)).trans ?_
    exact shapeCast_apply _ _ (ix2 f c) (ix3 (0 : Fin 1) f c) (by
      rw [Shape.rowMajor_val_three, Shape.rowMajor_val_two]
      show (0 * 64 + f.val) * 32 + c.val = f.val * 32 + c.val
      omega)
  rw [e1, e2]

/-- The reduced axis's coordinate `c` inserted into `(h, w, f)` is `(h, w, f, c)`. -/
theorem lift_eq (h w : Fin 30) (f : Fin 64) (c : Fin (S30x30x64x32.size 3)) :
    reduces_S30x30x64x32_S30x30x64.lift (ix3 h w f) c = ix4 h w f (c : Fin 32) :=
  funext fun a => Fin.ext (match a with
    | ⟨0, _⟩ => rfl
    | ⟨1, _⟩ => rfl
    | ⟨2, _⟩ => rfl
    | ⟨3, _⟩ => rfl)

/-- The lane maximum of a window position's sum at `(h, w, f)`: the maximum over the channels. -/
theorem shift_max_apply (off : Fin 3 → Nat) (hs : S32x32x32.Slices off S30x30x32) (ho : off 2 = 0)
    (img : FVec Ideal S32x32x32 .f32) (wk : Vec Ideal S1x64x32 .f32)
    (h w : Fin 30) (f : Fin 64) (h' w' : Fin 32) (hh : h'.val = off 0 + h.val) (hw : w'.val = off 1 + w.val) :
    multiReduction .maximumf [3] S30x30x64 (shiftSum off hs img wk) 0xFF800000#32 reduces_S30x30x64x32_S30x30x64 (.inl rfl) rfl (ix3 h w f)
      = (Finset.univ : Finset (Fin 32)).fold max (FloatOps.ofBits (F := Ideal) .f32 0xFF800000#32)
          (fun c => img (ix3 h' w' c) + wk (ix3 0 f c)) := by
  refine (Ideal.multiReduction_maximumf_single (shiftSum off hs img wk) _ reduces_S30x30x64x32_S30x30x64 _ _ (ix3 h w f)).trans ?_
  refine Finset.fold_congr (fun c _ => ?_)
  show shiftSum off hs img wk (reduces_S30x30x64x32_S30x30x64.lift (ix3 h w f) c) = _
  rw [lift_eq]
  exact shiftSum_apply off hs img wk h w f c h' w' c hh hw (by rw [ho]; omega)

/-- The lane minimum of a window position's sum at `(h, w, f)`: the minimum over the channels. -/
theorem shift_min_apply (off : Fin 3 → Nat) (hs : S32x32x32.Slices off S30x30x32) (ho : off 2 = 0)
    (img : FVec Ideal S32x32x32 .f32) (wk : Vec Ideal S1x64x32 .f32)
    (h w : Fin 30) (f : Fin 64) (h' w' : Fin 32) (hh : h'.val = off 0 + h.val) (hw : w'.val = off 1 + w.val) :
    multiReduction .minimumf [3] S30x30x64 (shiftSum off hs img wk) 0x7F800000#32 reduces_S30x30x64x32_S30x30x64 (.inl rfl) rfl (ix3 h w f)
      = (Finset.univ : Finset (Fin 32)).fold min (FloatOps.ofBits (F := Ideal) .f32 0x7F800000#32)
          (fun c => img (ix3 h' w' c) + wk (ix3 0 f c)) := by
  refine (Ideal.multiReduction_minimumf_single (shiftSum off hs img wk) _ reduces_S30x30x64x32_S30x30x64 _ _ (ix3 h w f)).trans ?_
  refine Finset.fold_congr (fun c _ => ?_)
  show shiftSum off hs img wk (reduces_S30x30x64x32_S30x30x64.lift (ix3 h w f) c) = _
  rw [lift_eq]
  exact shiftSum_apply off hs img wk h w f c h' w' c hh hw (by rw [ho]; omega)

end Cert.KernelIdeal.Shift

end
-- ==== Proof.TropFold.lean ====
/-
  Regrouping an extremum over 288 = 9 · 32 terms.

  The maximum of `b` and of the 288 values `g s c` (`s < 9`, `c < 32`), taken in one sweep over
  `k = 32·s + c`, equals the running maximum of the nine partial maxima `max b (g s 0) … (g s 31)`:
  both are the least upper bound of `b` and of all the `g s c`.  Nothing but the order is used, so the
  statement holds in any linear order, whatever the starting value `b` is; dually for the minimum.
-/
import Idealize.ShloMosaic.PureOps.Ideal.Laws

namespace Cert.Trop

variable {α : Type*}

/-- Nine values combined left to right by one binary operation:
    `op (… (op (op (M 0) (M 1)) (M 2)) …) (M 8)`. -/
def chain9 (op : α → α → α) (M : Fin 9 → α) : α :=
  op (op (op (op (op (op (op (op (M 0) (M 1)) (M 2)) (M 3)) (M 4)) (M 5)) (M 6)) (M 7)) (M 8)

variable [LinearOrder α]

/-- Each of the nine values lies below their running maximum. -/
theorem le_chain9_max (M : Fin 9 → α) (s : Fin 9) : M s ≤ chain9 max M := by
  have h8 : M 8 ≤ chain9 max M := le_max_right _ _
  have h7 : M 7 ≤ chain9 max M := le_max_of_le_left (le_max_right _ _)
  have h6 : M 6 ≤ chain9 max M := le_max_of_le_left (le_max_of_le_left (le_max_right _ _))
  have h5 : M 5 ≤ chain9 max M := le_max_of_le_left (le_max_of_le_left (le_max_of_le_left (le_max_right _ _)))
  have h4 : M 4 ≤ chain9 max M :=
    le_max_of_le_left (le_max_of_le_left (le_max_of_le_left (le_max_of_le_left (le_max_right _ _))))
  have h3 : M 3 ≤ chain9 max M :=
    le_max_of_le_left (le_max_of_le_left (le_max_of_le_left (le_max_of_le_left (le_max_of_le_left (le_max_right _ _)))))
  have h2 : M 2 ≤ chain9 max M :=
    le_max_of_le_left (le_max_of_le_left (le_max_of_le_left (le_max_of_le_left (le_max_of_le_left
      (le_max_of_le_left (le_max_right _ _))))))
  have h1 : M 1 ≤ chain9 max M :=
    le_max_of_le_left (le_max_of_le_left (le_max_of_le_left (le_max_of_le_left (le_max_of_le_left
      (le_max_of_le_left (le_max_of_le_left (le_max_right _ _)))))))
  have h0 : M 0 ≤ chain9 max M :=
    le_max_of_le_left (le_max_of_le_left (le_max_of_le_left (le_max_of_le_left (le_max_of_le_left
      (le_max_of_le_left (le_max_of_le_left (le_max_left _ _)))))))
  match s with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨_ + 9, h⟩ => exact absurd h (by omega)

/-- A bound for all nine values bounds their running maximum. -/
theorem chain9_max_le (M : Fin 9 → α) (u : α) (h : ∀ s, M s ≤ u) : chain9 max M ≤ u :=
  max_le (max_le (max_le (max_le (max_le (max_le (max_le (max_le (h 0) (h 1)) (h 2)) (h 3)) (h 4)) (h 5)) (h 6)) (h 7)) (h 8)

/-- The running minimum of nine values lies below each of them. -/
theorem chain9_min_le (M : Fin 9 → α) (s : Fin 9) : chain9 min M ≤ M s := by
  have h8 : chain9 min M ≤ M 8 := min_le_right _ _
  have h7 : chain9 min M ≤ M 7 := min_le_of_left_le (min_le_right _ _)
  have h6 : chain9 min M ≤ M 6 := min_le_of_left_le (min_le_of_left_le (min_le_right _ _))
  have h5 : chain9 min M ≤ M 5 := min_le_of_left_le (min_le_of_left_le (min_le_of_left_le (min_le_right _ _)))
  have h4 : chain9 min M ≤ M 4 :=
    min_le_of_left_le (min_le_of_left_le (min_le_of_left_le (min_le_of_left_le (min_le_right _ _))))
  have h3 : chain9 min M ≤ M 3 :=
    min_le_of_left_le (min_le_of_left_le (min_le_of_left_le (min_le_of_left_le (min_le_of_left_le (min_le_right _ _)))))
  have h2 : chain9 min M ≤ M 2 :=
    min_le_of_left_le (min_le_of_left_le (min_le_of_left_le (min_le_of_left_le (min_le_of_left_le
      (min_le_of_left_le (min_le_right _ _))))))
  have h1 : chain9 min M ≤ M 1 :=
    min_le_of_left_le (min_le_of_left_le (min_le_of_left_le (min_le_of_left_le (min_le_of_left_le
      (min_le_of_left_le (min_le_of_left_le (min_le_right _ _)))))))
  have h0 : chain9 min M ≤ M 0 :=
    min_le_of_left_le (min_le_of_left_le (min_le_of_left_le (min_le_of_left_le (min_le_of_left_le
      (min_le_of_left_le (min_le_of_left_le (min_le_left _ _)))))))
  match s with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨_ + 9, h⟩ => exact absurd h (by omega)

/-- A lower bound for all nine values is one for their running minimum. -/
theorem le_chain9_min (M : Fin 9 → α) (u : α) (h : ∀ s, u ≤ M s) : u ≤ chain9 min M :=
  le_min (le_min (le_min (le_min (le_min (le_min (le_min (le_min (h 0) (h 1)) (h 2)) (h 3)) (h 4)) (h 5)) (h 6)) (h 7)) (h 8)

/-- The quotient and the remainder of `k < 288` by 32, as coordinates. -/
def hi (k : Fin 288) : Fin 9 := ⟨k.val / 32, by have := k.isLt; omega⟩
def lo (k : Fin 288) : Fin 32 := ⟨k.val % 32, Nat.mod_lt _ (by decide)⟩
/-- The position `32·s + c`. -/
def at32 (s : Fin 9) (c : Fin 32) : Fin 288 := ⟨32 * s.val + c.val, by have := s.isLt; have := c.isLt; omega⟩

theorem hi_at32 (s : Fin 9) (c : Fin 32) : hi (at32 s c) = s := Fin.ext (by
  show (32 * s.val + c.val) / 32 = s.val
  have := c.isLt; omega)
theorem lo_at32 (s : Fin 9) (c : Fin 32) : lo (at32 s c) = c := Fin.ext (by
  show (32 * s.val + c.val) % 32 = c.val
  have := c.isLt; omega)

/-- **One maximum over the 288 positions is the running maximum of the nine partial maxima.** -/
theorem fold_max_regroup (b : α) (g : Fin 9 → Fin 32 → α) :
    (Finset.univ : Finset (Fin 288)).fold max b (fun k => g (hi k) (lo k))
      = chain9 max (fun s => (Finset.univ : Finset (Fin 32)).fold max b (g s)) := by
  apply le_antisymm
  · refine (Finset.fold_max_le _).2 ⟨?_, fun k _ => ?_⟩
    · exact le_trans ((Finset.le_fold_max _).2 (Or.inl le_rfl))
        (le_chain9_max (fun s => (Finset.univ : Finset (Fin 32)).fold max b (g s)) 0)
    · exact le_trans ((Finset.le_fold_max _).2 (Or.inr ⟨lo k, Finset.mem_univ _, le_rfl⟩))
        (le_chain9_max (fun s => (Finset.univ : Finset (Fin 32)).fold max b (g s)) (hi k))
  · refine chain9_max_le _ _ fun s => (Finset.fold_max_le _).2 ⟨(Finset.le_fold_max _).2 (Or.inl le_rfl), fun c _ => ?_⟩
    refine (Finset.le_fold_max _).2 (Or.inr ⟨at32 s c, Finset.mem_univ _, ?_⟩)
    rw [hi_at32, lo_at32]

/-- **One minimum over the 288 positions is the running minimum of the nine partial minima.** -/
theorem fold_min_regroup (b : α) (g : Fin 9 → Fin 32 → α) :
    (Finset.univ : Finset (Fin 288)).fold min b (fun k => g (hi k) (lo k))
      = chain9 min (fun s => (Finset.univ : Finset (Fin 32)).fold min b (g s)) := by
  apply le_antisymm
  · refine le_chain9_min _ _ fun s => (Finset.le_fold_min _).2 ⟨(Finset.fold_min_le _).2 (Or.inl le_rfl), fun c _ => ?_⟩
    refine (Finset.fold_min_le _).2 (Or.inr ⟨at32 s c, Finset.mem_univ _, ?_⟩)
    rw [hi_at32, lo_at32]
  · refine (Finset.le_fold_min _).2 ⟨?_, fun k _ => ?_⟩
    · exact le_trans (chain9_min_le (fun s => (Finset.univ : Finset (Fin 32)).fold min b (g s)) 0)
        ((Finset.fold_min_le _).2 (Or.inl le_rfl))
    · exact le_trans (chain9_min_le (fun s => (Finset.univ : Finset (Fin 32)).fold min b (g s)) (hi k))
        ((Finset.fold_min_le _).2 (Or.inr ⟨lo k, Finset.mem_univ _, le_rfl⟩))

end Cert.Trop
-- ==== Proof.TropSpec.lean ====
/-
  The tropical convolution, as ONE function of the three arguments.

  `x : [8, 32, 32, 32]` (batch, row, column, channel), `wt : [1, 1, 1, 288, 64]` (patch position, filter) and
  `bias : [64]`.  A 3 × 3 window at output pixel `(h, w)` holds 288 = 9 · 32 entries: position `k = 32·s + c` is
  channel `c` of the pixel at window row `s / 3` and window column `s % 3`, that is `x (b, s/3 + h, s%3 + w, c)`.
  The result at `(b, h, w, f)` is
      max over k of (patch k + wt (k, f))  −  min over k of (patch k + wt (k, f))  +  bias f,
  the maximum started from the `-∞` pattern and the minimum from the `+∞` pattern, as both programs do.
-/
import proofs.«140560_j70489003262695_1_alg».proof.Proof.TropFold
import Idealize.ShloMosaic.Lib.ValueIdx

noncomputable section

namespace Cert.Trop

open Idealize.ShloMosaic Idealize.ShloMosaic.ValueIdx

/-- The image row under output row `h` at window position `s`: `s / 3 + h`. -/
def row (h : Fin 30) (s : Fin 9) : Fin 32 := ⟨s.val / 3 + h.val, by have := h.isLt; have := s.isLt; omega⟩
/-- The image column under output column `w` at window position `s`: `s % 3 + w`. -/
def col (w : Fin 30) (s : Fin 9) : Fin 32 := ⟨s.val % 3 + w.val, by have := w.isLt; have := s.isLt; omega⟩

/-- The starting value of a maximum: the pattern of `-∞`. -/
abbrev negInf : EReal := FloatOps.ofBits (F := Ideal) .f32 0xFF800000#32
/-- The starting value of a minimum: the pattern of `+∞`. -/
abbrev posInf : EReal := FloatOps.ofBits (F := Ideal) .f32 0x7F800000#32

/-- Patch entry `(s, c)` of pixel `(b, h, w)` plus filter `f`'s weight at position `32·s + c`. -/
def term (x : FVec Ideal ⟨4, ![8, 32, 32, 32]⟩ .f32) (wt : FVec Ideal ⟨5, ![1, 1, 1, 288, 64]⟩ .f32)
    (b : Fin 8) (h w : Fin 30) (f : Fin 64) (s : Fin 9) (c : Fin 32) : EReal :=
  x (ix4 b (row h s) (col w s) c) + wt (ix5 (0 : Fin 1) (0 : Fin 1) (0 : Fin 1) (at32 s c) f)

/-- The result at `(b, h, w, f)`. -/
def Gat (x : FVec Ideal ⟨4, ![8, 32, 32, 32]⟩ .f32) (wt : FVec Ideal ⟨5, ![1, 1, 1, 288, 64]⟩ .f32)
    (bias : FVec Ideal ⟨1, ![64]⟩ .f32) (b : Fin 8) (h w : Fin 30) (f : Fin 64) : EReal :=
  (Finset.univ : Finset (Fin 288)).fold max negInf (fun k => term x wt b h w f (hi k) (lo k))
    - (Finset.univ : Finset (Fin 288)).fold min posInf (fun k => term x wt b h w f (hi k) (lo k))
    + bias (ix1 f)

/-- The whole result array. -/
def G (x : FVec Ideal ⟨4, ![8, 32, 32, 32]⟩ .f32) (wt : FVec Ideal ⟨5, ![1, 1, 1, 288, 64]⟩ .f32)
    (bias : FVec Ideal ⟨1, ![64]⟩ .f32) : FVec Ideal ⟨4, ![8, 30, 30, 64]⟩ .f32 :=
  fun i => Gat x wt bias (i 0) (i 1) (i 2) (i 3)

theorem G_apply (x : FVec Ideal ⟨4, ![8, 32, 32, 32]⟩ .f32) (wt : FVec Ideal ⟨5, ![1, 1, 1, 288, 64]⟩ .f32)
    (bias : FVec Ideal ⟨1, ![64]⟩ .f32) (b : Fin 8) (h w : Fin 30) (f : Fin 64) :
    G x wt bias (ix4 b h w f) = Gat x wt bias b h w f := rfl

/-- The same value with each extremum taken window position by window position: the running maximum (minimum)
    of the nine positions' maxima (minima) over the channels. -/
theorem Gat_eq_chain (x : FVec Ideal ⟨4, ![8, 32, 32, 32]⟩ .f32) (wt : FVec Ideal ⟨5, ![1, 1, 1, 288, 64]⟩ .f32)
    (bias : FVec Ideal ⟨1, ![64]⟩ .f32) (b : Fin 8) (h w : Fin 30) (f : Fin 64) :
    Gat x wt bias b h w f
      = chain9 max (fun s => (Finset.univ : Finset (Fin 32)).fold max negInf (term x wt b h w f s))
        - chain9 min (fun s => (Finset.univ : Finset (Fin 32)).fold min posInf (term x wt b h w f s))
        + bias (ix1 f) := by
  unfold Gat
  rw [fold_max_regroup negInf (term x wt b h w f), fold_min_regroup posInf (term x wt b h w f)]

/-- Every position is `32·(k / 32) + k % 32`. -/
theorem at32_hi_lo (k : Fin 288) : at32 (hi k) (lo k) = k := Fin.ext (by
  show 32 * (k.val / 32) + k.val % 32 = k.val
  omega)

end Cert.Trop

end
-- ==== Proof.KernelBlock.lean ====
/-
  What one grid point leaves in the output block.

  The body loads the point's image block `x0 : [1, 32, 32, 32]`, the nine weight slabs `x1[s] : [1, 64, 32]` of
  the weight array `x1 : [9, 64, 32]` and the bias `x2 : [64]`, and stores one [1, 30, 30, 64] value.  At
  `(0, h, w, f)` that value is
      (running max over the nine window positions s of  max over c of (x0 (0, s/3 + h, s%3 + w, c) + x1 (s, f, c)))
    − (running min over s of  min over c of the same sums)  +  x2 f:
  each window position's lane reduction is read by the one-position lemma, the nine are combined by the body's
  `maximumf` / `minimumf` chain, and the store's layout (the leading unit axis, the bias broadcast over pixels) is
  the generated reading of the stored value as one index-by-index function of the loads.
-/
import proofs.«140560_j70489003262695_1_alg».proof.Proof.KernelValue
import proofs.«140560_j70489003262695_1_alg».proof.Proof.KernelShift
import proofs.«140560_j70489003262695_1_alg».proof.Proof.TropSpec

set_option maxRecDepth 16384

noncomputable section

namespace Cert.KernelIdeal.Block

open Cert.KernelIdeal Cert.KernelIdeal.Gen Cert.KernelIdeal.Value Cert.KernelIdeal.Shift
open Idealize.ShloMosaic Idealize.ShloMosaic.ValueIdx Cert.Trop

/-! ## The exact operations, one equation each -/

theorem addf_eq {a a' b b' : EReal} (h1 : a = a') (h2 : b = b') :
    FloatOps.addf (F := Ideal) (φ := .f32) a b = a' + b' := by subst h1 h2; rfl
theorem subf_eq {a a' b b' : EReal} (h1 : a = a') (h2 : b = b') :
    FloatOps.subf (F := Ideal) (φ := .f32) a b = a' - b' := by subst h1 h2; rfl
theorem maxf_eq {a a' b b' : EReal} (h1 : a = a') (h2 : b = b') :
    FloatOps.maximumf (F := Ideal) (φ := .f32) a b = max a' b' := by subst h1 h2; rfl
theorem minf_eq {a a' b b' : EReal} (h1 : a = a') (h2 : b = b') :
    FloatOps.minimumf (F := Ideal) (φ := .f32) a b = min a' b' := by subst h1 h2; rfl

/-- An index of [30, 30, 64] with the coordinates `(h, w, f)`. -/
theorem idx3_eq (j : S30x30x64.Idx) (h w : Fin 30) (f : Fin 64) (e0 : (j 0).val = h.val) (e1 : (j 1).val = w.val)
    (e2 : (j 2).val = f.val) : j = ix3 h w f :=
  funext fun a => Fin.ext (match a with
    | ⟨0, _⟩ => e0
    | ⟨1, _⟩ => e1
    | ⟨2, _⟩ => e2)

/-- The image block without its leading unit axis. -/
theorem img_apply (P0 : Vec Ideal S1x32x32x32 .f32) (a b c : Fin 32) :
    shapeCast S32x32x32 P0 shapeCasts_S1x32x32x32_S32x32x32 (ix3 a b c) = P0 (ix4 (0 : Fin 1) a b c) :=
  shapeCast_apply _ _ (ix3 a b c) (ix4 (0 : Fin 1) a b c) (by
    rw [Shape.rowMajor_val_four, Shape.rowMajor_val_three]
    show ((0 * 32 + a.val) * 32 + b.val) * 32 + c.val = (a.val * 32 + b.val) * 32 + c.val
    omega)

/-! ## One window position -/

/-- The lane maximum for the window offset `off`, at an index with coordinates `(h, w, f)`. -/
theorem leaf_max (off : Fin 3 → Nat) (hs : S32x32x32.Slices off S30x30x32) (ho : off 2 = 0)
    (P0 : Vec Ideal S1x32x32x32 .f32) (wk : Vec Ideal S1x64x32 .f32) (j : S30x30x64.Idx)
    (h w : Fin 30) (f : Fin 64) (hj : j = ix3 h w f) (h' w' : Fin 32)
    (hh : h'.val = off 0 + h.val) (hw : w'.val = off 1 + w.val) :
    multiReduction (F := Ideal) .maximumf [3] S30x30x64 (addf (broadcastTo S30x30x64x32 (shapeCast S30x30x1x32 (extractStridedSlice S30x30x32 off (shapeCast S32x32x32 P0 shapeCasts_S1x32x32x32_S32x32x32) hs) shapeCasts_S30x30x32_S30x30x1x32) broadcasts_S30x30x1x32_S30x30x64x32) (broadcastTo S30x30x64x32 (shapeCast S1x1x64x32 (shapeCast S64x32 wk shapeCasts_S1x64x32_S64x32) shapeCasts_S64x32_S1x1x64x32) broadcasts_S1x1x64x32_S30x30x64x32)) 0xFF800000#32 reduces_S30x30x64x32_S30x30x64 (.inl rfl) rfl j
      = (Finset.univ : Finset (Fin 32)).fold max negInf (fun c => P0 (ix4 (0 : Fin 1) h' w' c) + wk (ix3 (0 : Fin 1) f c)) := by
  subst hj
  refine (shift_max_apply off hs ho _ wk h w f h' w' hh hw).trans ?_
  exact Finset.fold_congr (fun c _ => by rw [img_apply])

/-- The lane minimum for the window offset `off`, at an index with coordinates `(h, w, f)`. -/
theorem leaf_min (off : Fin 3 → Nat) (hs : S32x32x32.Slices off S30x30x32) (ho : off 2 = 0)
    (P0 : Vec Ideal S1x32x32x32 .f32) (wk : Vec Ideal S1x64x32 .f32) (j : S30x30x64.Idx)
    (h w : Fin 30) (f : Fin 64) (hj : j = ix3 h w f) (h' w' : Fin 32)
    (hh : h'.val = off 0 + h.val) (hw : w'.val = off 1 + w.val) :
    multiReduction (F := Ideal) .minimumf [3] S30x30x64 (addf (broadcastTo S30x30x64x32 (shapeCast S30x30x1x32 (extractStridedSlice S30x30x32 off (shapeCast S32x32x32 P0 shapeCasts_S1x32x32x32_S32x32x32) hs) shapeCasts_S30x30x32_S30x30x1x32) broadcasts_S30x30x1x32_S30x30x64x32) (broadcastTo S30x30x64x32 (shapeCast S1x1x64x32 (shapeCast S64x32 wk shapeCasts_S1x64x32_S64x32) shapeCasts_S64x32_S1x1x64x32) broadcasts_S1x1x64x32_S30x30x64x32)) 0x7F800000#32 reduces_S30x30x64x32_S30x30x64 (.inl rfl) rfl j
      = (Finset.univ : Finset (Fin 32)).fold min posInf (fun c => P0 (ix4 (0 : Fin 1) h' w' c) + wk (ix3 (0 : Fin 1) f c)) := by
  subst hj
  refine (shift_min_apply off hs ho _ wk h w f h' w' hh hw).trans ?_
  exact Finset.fold_congr (fun c _ => by rw [img_apply])

/-! ## The stored value at `(0, h, w, f)`, over the loads as variables -/

theorem block_apply (P0 : Vec Ideal S1x32x32x32 .f32) (Pw : Fin 9 → Vec Ideal S1x64x32 .f32) (P10 : Vec Ideal S64 .f32)
    (h w : Fin 30) (f : Fin 64) :
    E3 (F := Ideal) P0 (Pw 0) (Pw 1) (Pw 2) (Pw 3) (Pw 4) (Pw 5) (Pw 6) (Pw 7) (Pw 8) P10 (ix4 (0 : Fin 1) h w f)
      = chain9 max (fun s => (Finset.univ : Finset (Fin 32)).fold max negInf
            (fun c => P0 (ix4 (0 : Fin 1) (row h s) (col w s) c) + Pw s (ix3 (0 : Fin 1) f c)))
        - chain9 min (fun s => (Finset.univ : Finset (Fin 32)).fold min posInf
            (fun c => P0 (ix4 (0 : Fin 1) (row h s) (col w s) c) + Pw s (ix3 (0 : Fin 1) f c)))
        + P10 (ix1 f) := by
  unfold chain9
  refine addf_eq (subf_eq ?_ ?_) ?_
  · refine maxf_eq (maxf_eq (maxf_eq (maxf_eq (maxf_eq (maxf_eq (maxf_eq (maxf_eq ?_ ?_) ?_) ?_) ?_) ?_) ?_) ?_) ?_
    · exact leaf_max ![0, 0, 0] slices_S32x32x32_o0_0_0_S30x30x32 rfl P0 (Pw 0) _ h w f (idx3_eq _ h w f rfl rfl rfl) (row h 0) (col w 0)
        (by show 0 / 3 + h.val = 0 + h.val; omega) (by show 0 % 3 + w.val = 0 + w.val; omega)
    · exact leaf_max ![0, 1, 0] slices_S32x32x32_o0_1_0_S30x30x32 rfl P0 (Pw 1) _ h w f (idx3_eq _ h w f rfl rfl rfl) (row h 1) (col w 1)
        (by show 1 / 3 + h.val = 0 + h.val; omega) (by show 1 % 3 + w.val = 1 + w.val; omega)
    · exact leaf_max ![0, 2, 0] slices_S32x32x32_o0_2_0_S30x30x32 rfl P0 (Pw 2) _ h w f (idx3_eq _ h w f rfl rfl rfl) (row h 2) (col w 2)
        (by show 2 / 3 + h.val = 0 + h.val; omega) (by show 2 % 3 + w.val = 2 + w.val; omega)
    · exact leaf_max ![1, 0, 0] slices_S32x32x32_o1_0_0_S30x30x32 rfl P0 (Pw 3) _ h w f (idx3_eq _ h w f rfl rfl rfl) (row h 3) (col w 3)
        (by show 3 / 3 + h.val = 1 + h.val; omega) (by show 3 % 3 + w.val = 0 + w.val; omega)
    · exact leaf_max ![1, 1, 0] slices_S32x32x32_o1_1_0_S30x30x32 rfl P0 (Pw 4) _ h w f (idx3_eq _ h w f rfl rfl rfl) (row h 4) (col w 4)
        (by show 4 / 3 + h.val = 1 + h.val; omega) (by show 4 % 3 + w.val = 1 + w.val; omega)
    · exact leaf_max ![1, 2, 0] slices_S32x32x32_o1_2_0_S30x30x32 rfl P0 (Pw 5) _ h w f (idx3_eq _ h w f rfl rfl rfl) (row h 5) (col w 5)
        (by show 5 / 3 + h.val = 1 + h.val; omega) (by show 5 % 3 + w.val = 2 + w.val; omega)
    · exact leaf_max ![2, 0, 0] slices_S32x32x32_o2_0_0_S30x30x32 rfl P0 (Pw 6) _ h w f (idx3_eq _ h w f rfl rfl rfl) (row h 6) (col w 6)
        (by show 6 / 3 + h.val = 2 + h.val; omega) (by show 6 % 3 + w.val = 0 + w.val; omega)
    · exact leaf_max ![2, 1, 0] slices_S32x32x32_o2_1_0_S30x30x32 rfl P0 (Pw 7) _ h w f (idx3_eq _ h w f rfl rfl rfl) (row h 7) (col w 7)
        (by show 7 / 3 + h.val = 2 + h.val; omega) (by show 7 % 3 + w.val = 1 + w.val; omega)
    · exact leaf_max ![2, 2, 0] slices_S32x32x32_o2_2_0_S30x30x32 rfl P0 (Pw 8) _ h w f (idx3_eq _ h w f rfl rfl rfl) (row h 8) (col w 8)
        (by show 8 / 3 + h.val = 2 + h.val; omega) (by show 8 % 3 + w.val = 2 + w.val; omega)
  · refine minf_eq (minf_eq (minf_eq (minf_eq (minf_eq (minf_eq (minf_eq (minf_eq ?_ ?_) ?_) ?_) ?_) ?_) ?_) ?_) ?_
    · exact leaf_min ![0, 0, 0] slices_S32x32x32_o0_0_0_S30x30x32 rfl P0 (Pw 0) _ h w f (idx3_eq _ h w f rfl rfl rfl) (row h 0) (col w 0)
        (by show 0 / 3 + h.val = 0 + h.val; omega) (by show 0 % 3 + w.val = 0 + w.val; omega)
    · exact leaf_min ![0, 1, 0] slices_S32x32x32_o0_1_0_S30x30x32 rfl P0 (Pw 1) _ h w f (idx3_eq _ h w f rfl rfl rfl) (row h 1) (col w 1)
        (by show 1 / 3 + h.val = 0 + h.val; omega) (by show 1 % 3 + w.val = 1 + w.val; omega)
    · exact leaf_min ![0, 2, 0] slices_S32x32x32_o0_2_0_S30x30x32 rfl P0 (Pw 2) _ h w f (idx3_eq _ h w f rfl rfl rfl) (row h 2) (col w 2)
        (by show 2 / 3 + h.val = 0 + h.val; omega) (by show 2 % 3 + w.val = 2 + w.val; omega)
    · exact leaf_min ![1, 0, 0] slices_S32x32x32_o1_0_0_S30x30x32 rfl P0 (Pw 3) _ h w f (idx3_eq _ h w f rfl rfl rfl) (row h 3) (col w 3)
        (by show 3 / 3 + h.val = 1 + h.val; omega) (by show 3 % 3 + w.val = 0 + w.val; omega)
    · exact leaf_min ![1, 1, 0] slices_S32x32x32_o1_1_0_S30x30x32 rfl P0 (Pw 4) _ h w f (idx3_eq _ h w f rfl rfl rfl) (row h 4) (col w 4)
        (by show 4 / 3 + h.val = 1 + h.val; omega) (by show 4 % 3 + w.val = 1 + w.val; omega)
    · exact leaf_min ![1, 2, 0] slices_S32x32x32_o1_2_0_S30x30x32 rfl P0 (Pw 5) _ h w f (idx3_eq _ h w f rfl rfl rfl) (row h 5) (col w 5)
        (by show 5 / 3 + h.val = 1 + h.val; omega) (by show 5 % 3 + w.val = 2 + w.val; omega)
    · exact leaf_min ![2, 0, 0] slices_S32x32x32_o2_0_0_S30x30x32 rfl P0 (Pw 6) _ h w f (idx3_eq _ h w f rfl rfl rfl) (row h 6) (col w 6)
        (by show 6 / 3 + h.val = 2 + h.val; omega) (by show 6 % 3 + w.val = 0 + w.val; omega)
    · exact leaf_min ![2, 1, 0] slices_S32x32x32_o2_1_0_S30x30x32 rfl P0 (Pw 7) _ h w f (idx3_eq _ h w f rfl rfl rfl) (row h 7) (col w 7)
        (by show 7 / 3 + h.val = 2 + h.val; omega) (by show 7 % 3 + w.val = 1 + w.val; omega)
    · exact leaf_min ![2, 2, 0] slices_S32x32x32_o2_2_0_S30x30x32 rfl P0 (Pw 8) _ h w f (idx3_eq _ h w f rfl rfl rfl) (row h 8) (col w 8)
        (by show 8 / 3 + h.val = 2 + h.val; omega) (by show 8 % 3 + w.val = 2 + w.val; omega)
  · exact congrArg P10 (funext fun a => Fin.ext (match a with
      | ⟨0, _⟩ => rfl))

/-! ## The loads -/

/-- Slab `s` of the weight array, as a [1, 64, 32] vector. -/
def wrow (x1 : Vec Ideal S9x64x32 .f32) (s : Fin 9) : Vec Ideal S1x64x32 .f32 := fun y => x1 (ix3 s (y 1) (y 2))

theorem ld_w0 (x1 : Vec Ideal S9x64x32 .f32) : View.ld x1 r0_2 = wrow x1 0 :=
  funext fun y => congrArg x1 (funext fun a => Fin.ext (match a with
    | ⟨0, _⟩ => by
      have h0 : (y 0).val < 1 := (y 0).isLt
      show 0 + 1 * (y 0).val = 0
      omega
    | ⟨1, _⟩ => by
      show 0 + 1 * (y 1).val = (y 1).val
      omega
    | ⟨2, _⟩ => by
      show 0 + 1 * (y 2).val = (y 2).val
      omega))
theorem ld_w1 (x1 : Vec Ideal S9x64x32 .f32) : View.ld x1 r0_3 = wrow x1 1 :=
  funext fun y => congrArg x1 (funext fun a => Fin.ext (match a with
    | ⟨0, _⟩ => by
      have h0 : (y 0).val < 1 := (y 0).isLt
      show 1 + 1 * (y 0).val = 1
      omega
    | ⟨1, _⟩ => by
      show 0 + 1 * (y 1).val = (y 1).val
      omega
    | ⟨2, _⟩ => by
      show 0 + 1 * (y 2).val = (y 2).val
      omega))
theorem ld_w2 (x1 : Vec Ideal S9x64x32 .f32) : View.ld x1 r0_4 = wrow x1 2 :=
  funext fun y => congrArg x1 (funext fun a => Fin.ext (match a with
    | ⟨0, _⟩ => by
      have h0 : (y 0).val < 1 := (y 0).isLt
      show 2 + 1 * (y 0).val = 2
      omega
    | ⟨1, _⟩ => by
      show 0 + 1 * (y 1).val = (y 1).val
      omega
    | ⟨2, _⟩ => by
      show 0 + 1 * (y 2).val = (y 2).val
      omega))
theorem ld_w3 (x1 : Vec Ideal S9x64x32 .f32) : View.ld x1 r0_5 = wrow x1 3 :=
  funext fun y => congrArg x1 (funext fun a => Fin.ext (match a with
    | ⟨0, _⟩ => by
      have h0 : (y 0).val < 1 := (y 0).isLt
      show 3 + 1 * (y 0).val = 3
      omega
    | ⟨1, _⟩ => by
      show 0 + 1 * (y 1).val = (y 1).val
      omega
    | ⟨2, _⟩ => by
      show 0 + 1 * (y 2).val = (y 2).val
      omega))
theorem ld_w4 (x1 : Vec Ideal S9x64x32 .f32) : View.ld x1 r0_6 = wrow x1 4 :=
  funext fun y => congrArg x1 (funext fun a => Fin.ext (match a with
    | ⟨0, _⟩ => by
      have h0 : (y 0).val < 1 := (y 0).isLt
      show 4 + 1 * (y 0).val = 4
      omega
    | ⟨1, _⟩ => by
      show 0 + 1 * (y 1).val = (y 1).val
      omega
    | ⟨2, _⟩ => by
      show 0 + 1 * (y 2).val = (y 2).val
      omega))
theorem ld_w5 (x1 : Vec Ideal S9x64x32 .f32) : View.ld x1 r0_7 = wrow x1 5 :=
  funext fun y => congrArg x1 (funext fun a => Fin.ext (match a with
    | ⟨0, _⟩ => by
      have h0 : (y 0).val < 1 := (y 0).isLt
      show 5 + 1 * (y 0).val = 5
      omega
    | ⟨1, _⟩ => by
      show 0 + 1 * (y 1).val = (y 1).val
      omega
    | ⟨2, _⟩ => by
      show 0 + 1 * (y 2).val = (y 2).val
      omega))
theorem ld_w6 (x1 : Vec Ideal S9x64x32 .f32) : View.ld x1 r0_8 = wrow x1 6 :=
  funext fun y => congrArg x1 (funext fun a => Fin.ext (match a with
    | ⟨0, _⟩ => by
      have h0 : (y 0).val < 1 := (y 0).isLt
      show 6 + 1 * (y 0).val = 6
      omega
    | ⟨1, _⟩ => by
      show 0 + 1 * (y 1).val = (y 1).val
      omega
    | ⟨2, _⟩ => by
      show 0 + 1 * (y 2).val = (y 2).val
      omega))
theorem ld_w7 (x1 : Vec Ideal S9x64x32 .f32) : View.ld x1 r0_9 = wrow x1 7 :=
  funext fun y => congrArg x1 (funext fun a => Fin.ext (match a with
    | ⟨0, _⟩ => by
      have h0 : (y 0).val < 1 := (y 0).isLt
      show 7 + 1 * (y 0).val = 7
      omega
    | ⟨1, _⟩ => by
      show 0 + 1 * (y 1).val = (y 1).val
      omega
    | ⟨2, _⟩ => by
      show 0 + 1 * (y 2).val = (y 2).val
      omega))
theorem ld_w8 (x1 : Vec Ideal S9x64x32 .f32) : View.ld x1 r0_10 = wrow x1 8 :=
  funext fun y => congrArg x1 (funext fun a => Fin.ext (match a with
    | ⟨0, _⟩ => by
      have h0 : (y 0).val < 1 := (y 0).isLt
      show 8 + 1 * (y 0).val = 8
      omega
    | ⟨1, _⟩ => by
      show 0 + 1 * (y 1).val = (y 1).val
      omega
    | ⟨2, _⟩ => by
      show 0 + 1 * (y 2).val = (y 2).val
      omega))

theorem hz4 : (![0, 0, 0, 0] : Fin 4 → Nat) = fun _ => 0 := funext fun a => by fin_cases a <;> rfl
theorem hz1 : (![0] : Fin 1 → Nat) = fun _ => 0 := funext fun a => by fin_cases a <;> rfl

/-- **The output block after the body, at `(0, h, w, f)`, from the three input blocks.** -/
theorem out_apply (x0 : Vec Ideal S1x32x32x32 .f32) (x1 : Vec Ideal S9x64x32 .f32) (x2 : Vec Ideal S64 .f32)
    (h w : Fin 30) (f : Fin 64) :
    out0_3 (F := Ideal) x0 x1 x2 (ix4 (0 : Fin 1) h w f)
      = chain9 max (fun s => (Finset.univ : Finset (Fin 32)).fold max negInf
            (fun c => x0 (ix4 (0 : Fin 1) (row h s) (col w s) c) + x1 (ix3 s f c)))
        - chain9 min (fun s => (Finset.univ : Finset (Fin 32)).fold min posInf
            (fun c => x0 (ix4 (0 : Fin 1) (row h s) (col w s) c) + x1 (ix3 s f c)))
        + x2 (ix1 f) := by
  unfold out0_3
  refine (canon3_eq _ _ _ _ _ _ _ _ _ _ _ _).trans ?_
  rw [ld_w0, ld_w1, ld_w2, ld_w3, ld_w4, ld_w5, ld_w6, ld_w7, ld_w8]
  simp only [View.ld_unit_zero (S := S1x32x32x32) hz4, View.ld_unit_zero (S := S64) hz1]
  exact block_apply x0 (wrow x1) x2 h w f

end Cert.KernelIdeal.Block

end
-- ==== Proof.KernelArray.lean ====
/-
  From the blocks to the array: the kernel's result is `G` of its arguments.

  Grid point `t` (one per batch entry) stages image `t` of `x`, the whole weight array `w2` and the whole bias,
  and writes back block `t` of the result.  `w2 [s, f, c]` is the weight array the host lays out before the call:
  `wt` reshaped to [9, 32, 64] and its last two axes exchanged, so `w2 (s, f, c) = wt (32·s + c, f)`.  With the
  blocks read where they come from, what point `t` leaves at `(0, h, w, f)` is the tropical convolution at
  `(t, h, w, f)` in its position-by-position form, which is `G` there; the eight blocks tile the result array.
-/
import proofs.«140560_j70489003262695_1_alg».proof.Proof.KernelBlock
import Idealize.ShloMosaic.Lib.StableHlo.Run

set_option maxRecDepth 16384

noncomputable section

namespace Cert.KernelIdeal.Arr

open Cert.KernelIdeal Cert.KernelIdeal.Gen Cert.KernelIdeal.Value Cert.KernelIdeal.Block
open Idealize.ShloMosaic Idealize.ShloMosaic.TcCoe Idealize.ShloMosaic.ValueIdx Idealize.SL.Sem Cert.Trop
open Idealize.ShloMosaic.Pipeline (Dat)

variable (m : (ℓ : Loc nD τ sig) → Buf (Elt Ideal) ℓ) (ρ : Dev nD → PrngReg)

/-! ## The grid -/

theorem N_eq : cfg0.N = 8 := by decide

/-- The batch entry grid point `t` works on. -/
def tb (t : Fin cfg0.N) : Fin 8 := ⟨t.val, Nat.lt_of_lt_of_eq t.isLt N_eq⟩

/-- The printed index maps, decided over the eight points: the image and the result move with the point along the
    batch axis, the weights and the bias stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-! ## The input blocks, named at their literal types -/

def xblk (c : Dev nD) (t : Fin cfg0.N) : Vec Ideal S1x32x32x32 .f32 := iblk m c 0 t
def wblk (c : Dev nD) (t : Fin cfg0.N) : Vec Ideal S9x64x32 .f32 := iblk m c 1 t
def bblk (c : Dev nD) (t : Fin cfg0.N) : Vec Ideal S64 .f32 := iblk m c 2 t

/-- The image block at point `t` is image `t` of `x`. -/
theorem xblk_apply (c : Dev nD) (t : Fin cfg0.N) (a b c' : Fin 32) :
    xblk m c t (ix4 (0 : Fin 1) a b c') = m ((c : Thread nD τ).loc main_arg0) (ix4 (tb t) a b c') := by
  obtain ⟨e0, e1, e2, e3, -⟩ := idx_facts t
  show V m c main_arg0 (((cfg0.win 0).blk t).view.emb (ix4 (0 : Fin 1) a b c')) = _
  rw [V_main_arg0]
  refine congrArg _ (funext fun d => Fin.ext ?_)
  match d with
  | ⟨0, _⟩ => show win0_0.index t (0 : Fin 4) * 1 + 1 * 0 = t.val; omega
  | ⟨1, _⟩ => show win0_0.index t (1 : Fin 4) * 32 + 1 * a.val = a.val; omega
  | ⟨2, _⟩ => show win0_0.index t (2 : Fin 4) * 32 + 1 * b.val = b.val; omega
  | ⟨3, _⟩ => show win0_0.index t (3 : Fin 4) * 32 + 1 * c'.val = c'.val; omega

/-- The weight array the region finds: `wt` reshaped to [9, 32, 64], its last two axes exchanged. -/
theorem w2_eq (c : Dev nD) :
    (V m c main_v1 : S9x64x32.Idx → EReal)
      = transpose S9x64x32 [0, 2, 1] (shapeCast S9x32x64 (m ((c : Thread nD τ).loc main_arg1)) shapeCasts_S1x1x1x288x64_S9x32x64)
          transposes_S9x32x64_S9x64x32_0_2_1 := by
  dsimp only [Gen.V, Gen.hostOps0]; after_results; rfl

/-- The weight block (the whole of `w2`) at `(s, f, c')` is `wt` at patch position `32·s + c'`, filter `f`. -/
theorem wblk_apply (c : Dev nD) (t : Fin cfg0.N) (s : Fin 9) (f : Fin 64) (c' : Fin 32) :
    wblk m c t (ix3 s f c')
      = m ((c : Thread nD τ).loc main_arg1) (ix5 (0 : Fin 1) (0 : Fin 1) (0 : Fin 1) (at32 s c') f) := by
  obtain ⟨-, -, -, -, e4, e5, e6, -⟩ := idx_facts t
  show V m c main_v1 (((cfg0.win 1).blk t).view.emb (ix3 s f c')) = _
  have hemb : ((cfg0.win 1).blk t).view.emb (ix3 s f c') = ix3 s f c' :=
    funext fun d => Fin.ext (match d with
      | ⟨0, _⟩ => by show win0_1.index t (0 : Fin 3) * 9 + 1 * s.val = s.val; omega
      | ⟨1, _⟩ => by show win0_1.index t (1 : Fin 3) * 64 + 1 * f.val = f.val; omega
      | ⟨2, _⟩ => by show win0_1.index t (2 : Fin 3) * 32 + 1 * c'.val = c'.val; omega)
  rw [hemb, w2_eq]
  refine (transpose_apply _ _ _ (ix3 s f c') (ix3 s c' f) (fun b => match b with
    | ⟨0, _⟩ => rfl
    | ⟨1, _⟩ => rfl
    | ⟨2, _⟩ => rfl)).trans ?_
  exact shapeCast_apply _ _ (ix3 s c' f) (ix5 (0 : Fin 1) (0 : Fin 1) (0 : Fin 1) (at32 s c') f) (by
    rw [Shape.rowMajor_val_five, Shape.rowMajor_val_three]
    show ((((0 * 1 + 0) * 1 + 0) * 288 + (32 * s.val + c'.val)) * 64 + f.val) = (s.val * 32 + c'.val) * 64 + f.val
    omega)

/-- The bias block is the bias. -/
theorem bblk_apply (c : Dev nD) (t : Fin cfg0.N) (f : Fin 64) :
    bblk m c t (ix1 f) = m ((c : Thread nD τ).loc main_arg2) (ix1 f) := by
  obtain ⟨-, -, -, -, -, -, -, e7, -⟩ := idx_facts t
  show V m c main_arg2 (((cfg0.win 2).blk t).view.emb (ix1 f)) = _
  rw [V_main_arg2]
  refine congrArg _ (funext fun d => Fin.ext ?_)
  match d with
  | ⟨0, _⟩ => show win0_2.index t (0 : Fin 1) * 64 + 1 * f.val = f.val; omega

/-! ## What a point writes back -/

/-- WHAT POINT `t` WRITES BACK is block `t` of `G` of the arguments. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  rw [flushed3]
  refine funext fun (j : S1x30x30x64.Idx) => ?_
  obtain ⟨h, w, f, rfl⟩ : ∃ (h w : Fin 30) (f : Fin 64), j = ix4 (0 : Fin 1) h w f :=
    ⟨j 1, j 2, j 3, funext fun a => Fin.ext (match a with
      | ⟨0, _⟩ => by
        have h0 : (j 0).val < 1 := (j 0).isLt
        show (j 0).val = 0
        omega
      | ⟨1, _⟩ => rfl
      | ⟨2, _⟩ => rfl
      | ⟨3, _⟩ => rfl)⟩
  obtain ⟨-, -, -, -, -, -, -, -, e8, e9, e10, e11⟩ := idx_facts t
  show out0_3 (F := Ideal) (xblk m c t) (wblk m c t) (bblk m c t) (ix4 (0 : Fin 1) h w f)
      = (G (m ((c : Thread nD τ).loc main_arg0)) (m ((c : Thread nD τ).loc main_arg1)) (m ((c : Thread nD τ).loc main_arg2))) (((cfg0.win 3).blk t).view.emb (ix4 (0 : Fin 1) h w f))
  have hemb : ((cfg0.win 3).blk t).view.emb (ix4 (0 : Fin 1) h w f) = ix4 (tb t) h w f :=
    funext fun d => Fin.ext (match d with
      | ⟨0, _⟩ => by show win0_3.index t (0 : Fin 4) * 1 + 1 * 0 = t.val; omega
      | ⟨1, _⟩ => by show win0_3.index t (1 : Fin 4) * 30 + 1 * h.val = h.val; omega
      | ⟨2, _⟩ => by show win0_3.index t (2 : Fin 4) * 30 + 1 * w.val = w.val; omega
      | ⟨3, _⟩ => by show win0_3.index t (3 : Fin 4) * 64 + 1 * f.val = f.val; omega)
  rw [hemb, G_apply, Gat_eq_chain]
  refine (out_apply (xblk m c t) (wblk m c t) (bblk m c t) h w f).trans ?_
  simp only [xblk_apply, wblk_apply, bblk_apply]
  rfl

/-! ## The eight blocks tile the array -/

theorem mem_blk (t : Fin cfg0.N) (i : S8x30x30x64.Idx) :
    i ∈ ((cfg0.win 3).blk t).view.set ↔ ∀ a : Fin 4, win0_3.index t a * S1x30x30x64.size a ≤ (i a).val ∧ (i a).val < win0_3.index t a * S1x30x30x64.size a + S1x30x30x64.size a := by
  show i ∈ ((View.whole main_v2).slice (win0_3.rect t)).set ↔ _
  rw [View.set_slice_whole, Rect.mem_set_unit]
  exact Iff.rfl

/-- Every index `(b, h, w, f)` of the result lies in the block of point `b`. -/
theorem cover (i : S8x30x30x64.Idx) :
    ∃ t : Fin cfg0.N, (cfg0.win 3).flush t = true ∧ i ∈ ((cfg0.win 3).blk t).view.set := by
  have hi0 : (i 0).val < 8 := (i 0).isLt
  have hi1 : (i 1).val < 30 := (i 1).isLt
  have hi2 : (i 2).val < 30 := (i 2).isLt
  have hi3 : (i 3).val < 64 := (i 3).isLt
  obtain ⟨t, ht⟩ : ∃ t : Fin cfg0.N, t.val = (i 0).val := ⟨⟨(i 0).val, Nat.lt_of_lt_of_eq hi0 N_eq.symm⟩, rfl⟩
  obtain ⟨-, -, -, -, -, -, -, -, e8, e9, e10, e11⟩ := idx_facts t
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 30 ≤ (i 1).val ∧ (i 1).val < win0_3.index t (1 : Fin 4) * 30 + 30
    omega
  | ⟨2, _⟩ =>
    show win0_3.index t (2 : Fin 4) * 30 ≤ (i 2).val ∧ (i 2).val < win0_3.index t (2 : Fin 4) * 30 + 30
    omega
  | ⟨3, _⟩ =>
    show win0_3.index t (3 : Fin 4) * 64 ≤ (i 3).val ∧ (i 3).val < win0_3.index t (3 : Fin 4) * 64 + 64
    omega

/-- THE RESULT ARRAY after the run is `G` of the arguments. -/
theorem final (c : Dev nD) : (dats m 0 c).arrAt 3 cfg0.N = (G (m ((c : Thread nD τ).loc main_arg0)) (m ((c : Thread nD τ).loc main_arg1)) (m ((c : Thread nD τ).loc main_arg2))) :=
  (dats m 0 c).arrAt_eq_of_cover 3 (G (m ((c : Thread nD τ).loc main_arg0)) (m ((c : Thread nD τ).loc main_arg1)) (m ((c : Thread nD τ).loc main_arg2))) (fun t _ => flushed_eq m c t) cover

/-! ## The run -/

/-- Every weakly fair execution of the kernel program ends with its result at `G` of the arguments, the arguments
    unchanged. -/
theorem run : θ_run defs (onTc (τ := τ) (main (F := Ideal))) ⟨m, fun _ => 0, ρ⟩ fun r => ∀ c : Dev nD,
      r.2.mem ((c : Thread nD τ).loc main_v2) = (G (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Arr

end
-- ==== Proof.RefValue.lean ====
/-
  The reference computes the tropical convolution `G`.

  The reference stacks the nine shifted views of `x` along a new axis, flattens (position, channel) to the patch
  axis of length 288, adds the weights broadcast over batch and pixels, and takes the maximum and the minimum
  over the patch axis.  Read at an index: entry `(b, h, w, s, c)` of the stack is the view `s` at `(b, h, w, c)`,
  which is `x (b, s/3 + h, s%3 + w, c)`; patch position `k` is entry `(k / 32, k % 32)` of the stack; so the
  summand at `(b, h, w, k, f)` is `Trop.term` at `(k / 32, k % 32)`, and the two reductions are the two folds of
  `Trop.Gat`.
-/
import proofs.«140560_j70489003262695_1_alg».proof.Proof.Gen.ReferenceIdeal.Read
import proofs.«140560_j70489003262695_1_alg».proof.Proof.TropSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Trop

/-- The nine shifted views, each with a unit axis for its window position, in the order they are stacked. -/
abbrev views (x : FVec Ideal S8x32x32x32 .f32) : List ((s : Shape) × (s.Idx → EReal)) :=
  [⟨S8x30x30x1x32, val_main_v9 (F := Ideal) x⟩, ⟨S8x30x30x1x32, val_main_v10 (F := Ideal) x⟩, ⟨S8x30x30x1x32, val_main_v11 (F := Ideal) x⟩,
   ⟨S8x30x30x1x32, val_main_v12 (F := Ideal) x⟩, ⟨S8x30x30x1x32, val_main_v13 (F := Ideal) x⟩, ⟨S8x30x30x1x32, val_main_v14 (F := Ideal) x⟩,
   ⟨S8x30x30x1x32, val_main_v15 (F := Ideal) x⟩, ⟨S8x30x30x1x32, val_main_v16 (F := Ideal) x⟩, ⟨S8x30x30x1x32, val_main_v17 (F := Ideal) x⟩]

/-- The stack of the nine shifted views at `(b, h, w, s, c)`: view `s` at `(b, h, w, c)`, the image at
    `(b, s/3 + h, s%3 + w, c)`. -/
theorem stack_apply (x : FVec Ideal S8x32x32x32 .f32) (b : Fin 8) (h w : Fin 30) (s : Fin 9) (c : Fin 32) :
    val_main_v18 (F := Ideal) x (ix5 b h w s c) = x (ix4 b (row h s) (col w s) c) := by
  unfold val_main_v18
  show concatenate S8x30x30x9x32 3 (views x) concatenates_S8x30x30x1x32_S8x30x30x1x32_S8x30x30x1x32_S8x30x30x1x32_S8x30x30x1x32_S8x30x30x1x32_S8x30x30x1x32_S8x30x30x1x32_S8x30x30x1x32_S8x30x30x9x32_d3 (ix5 b h w s c) = _
  match s with
  | ⟨0, _⟩ =>
    refine (concatenate_apply_piece (t := S8x30x30x9x32) (3 : Fin 5) (views x) _ (ix5 b h w (⟨0, by omega⟩ : Fin 9) c) 0 (by show (0 : Nat) < 9; omega)
      S8x30x30x1x32 (val_main_v9 (F := Ideal) x) rfl rfl 0 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v9_apply, val_main_v0_apply]
    exact congrArg x (funext fun a => Fin.ext (match a with
      | ⟨0, _⟩ => rfl
      | ⟨1, _⟩ => by show h.val = 0 / 3 + h.val; omega
      | ⟨2, _⟩ => by show w.val = 0 % 3 + w.val; omega
      | ⟨3, _⟩ => rfl))
  | ⟨1, _⟩ =>
    refine (concatenate_apply_piece (t := S8x30x30x9x32) (3 : Fin 5) (views x) _ (ix5 b h w (⟨1, by omega⟩ : Fin 9) c) 1 (by show (1 : Nat) < 9; omega)
      S8x30x30x1x32 (val_main_v10 (F := Ideal) x) rfl rfl 1 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v10_apply, val_main_v1_apply]
    exact congrArg x (funext fun a => Fin.ext (match a with
      | ⟨0, _⟩ => rfl
      | ⟨1, _⟩ => by show h.val = 1 / 3 + h.val; omega
      | ⟨2, _⟩ => by show 1 + w.val = 1 % 3 + w.val; omega
      | ⟨3, _⟩ => rfl))
  | ⟨2, _⟩ =>
    refine (concatenate_apply_piece (t := S8x30x30x9x32) (3 : Fin 5) (views x) _ (ix5 b h w (⟨2, by omega⟩ : Fin 9) c) 2 (by show (2 : Nat) < 9; omega)
      S8x30x30x1x32 (val_main_v11 (F := Ideal) x) rfl rfl 2 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v11_apply, val_main_v2_apply]
    exact congrArg x (funext fun a => Fin.ext (match a with
      | ⟨0, _⟩ => rfl
      | ⟨1, _⟩ => by show h.val = 2 / 3 + h.val; omega
      | ⟨2, _⟩ => by show 2 + w.val = 2 % 3 + w.val; omega
      | ⟨3, _⟩ => rfl))
  | ⟨3, _⟩ =>
    refine (concatenate_apply_piece (t := S8x30x30x9x32) (3 : Fin 5) (views x) _ (ix5 b h w (⟨3, by omega⟩ : Fin 9) c) 3 (by show (3 : Nat) < 9; omega)
      S8x30x30x1x32 (val_main_v12 (F := Ideal) x) rfl rfl 3 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v12_apply, val_main_v3_apply]
    exact congrArg x (funext fun a => Fin.ext (match a with
      | ⟨0, _⟩ => rfl
      | ⟨1, _⟩ => by show 1 + h.val = 3 / 3 + h.val; omega
      | ⟨2, _⟩ => by show w.val = 3 % 3 + w.val; omega
      | ⟨3, _⟩ => rfl))
  | ⟨4, _⟩ =>
    refine (concatenate_apply_piece (t := S8x30x30x9x32) (3 : Fin 5) (views x) _ (ix5 b h w (⟨4, by omega⟩ : Fin 9) c) 4 (by show (4 : Nat) < 9; omega)
      S8x30x30x1x32 (val_main_v13 (F := Ideal) x) rfl rfl 4 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v13_apply, val_main_v4_apply]
    exact congrArg x (funext fun a => Fin.ext (match a with
      | ⟨0, _⟩ => rfl
      | ⟨1, _⟩ => by show 1 + h.val = 4 / 3 + h.val; omega
      | ⟨2, _⟩ => by show 1 + w.val = 4 % 3 + w.val; omega
      | ⟨3, _⟩ => rfl))
  | ⟨5, _⟩ =>
    refine (concatenate_apply_piece (t := S8x30x30x9x32) (3 : Fin 5) (views x) _ (ix5 b h w (⟨5, by omega⟩ : Fin 9) c) 5 (by show (5 : Nat) < 9; omega)
      S8x30x30x1x32 (val_main_v14 (F := Ideal) x) rfl rfl 5 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v14_apply, val_main_v5_apply]
    exact congrArg x (funext fun a => Fin.ext (match a with
      | ⟨0, _⟩ => rfl
      | ⟨1, _⟩ => by show 1 + h.val = 5 / 3 + h.val; omega
      | ⟨2, _⟩ => by show 2 + w.val = 5 % 3 + w.val; omega
      | ⟨3, _⟩ => rfl))
  | ⟨6, _⟩ =>
    refine (concatenate_apply_piece (t := S8x30x30x9x32) (3 : Fin 5) (views x) _ (ix5 b h w (⟨6, by omega⟩ : Fin 9) c) 6 (by show (6 : Nat) < 9; omega)
      S8x30x30x1x32 (val_main_v15 (F := Ideal) x) rfl rfl 6 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v15_apply, val_main_v6_apply]
    exact congrArg x (funext fun a => Fin.ext (match a with
      | ⟨0, _⟩ => rfl
      | ⟨1, _⟩ => by show 2 + h.val = 6 / 3 + h.val; omega
      | ⟨2, _⟩ => by show w.val = 6 % 3 + w.val; omega
      | ⟨3, _⟩ => rfl))
  | ⟨7, _⟩ =>
    refine (concatenate_apply_piece (t := S8x30x30x9x32) (3 : Fin 5) (views x) _ (ix5 b h w (⟨7, by omega⟩ : Fin 9) c) 7 (by show (7 : Nat) < 9; omega)
      S8x30x30x1x32 (val_main_v16 (F := Ideal) x) rfl rfl 7 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v16_apply, val_main_v7_apply]
    exact congrArg x (funext fun a => Fin.ext (match a with
      | ⟨0, _⟩ => rfl
      | ⟨1, _⟩ => by show 2 + h.val = 7 / 3 + h.val; omega
      | ⟨2, _⟩ => by show 1 + w.val = 7 % 3 + w.val; omega
      | ⟨3, _⟩ => rfl))
  | ⟨8, _⟩ =>
    refine (concatenate_apply_piece (t := S8x30x30x9x32) (3 : Fin 5) (views x) _ (ix5 b h w (⟨8, by omega⟩ : Fin 9) c) 8 (by show (8 : Nat) < 9; omega)
      S8x30x30x1x32 (val_main_v17 (F := Ideal) x) rfl rfl 8 rfl (ix5 b h w (0 : Fin 1) c)
      (fun d hd => match d with
        | ⟨0, _⟩ => rfl
        | ⟨1, _⟩ => rfl
        | ⟨2, _⟩ => rfl
        | ⟨3, _⟩ => (hd (Fin.ext rfl)).elim
        | ⟨4, _⟩ => rfl) rfl).trans ?_
    rw [val_main_v17_apply, val_main_v8_apply]
    exact congrArg x (funext fun a => Fin.ext (match a with
      | ⟨0, _⟩ => rfl
      | ⟨1, _⟩ => by show 2 + h.val = 8 / 3 + h.val; omega
      | ⟨2, _⟩ => by show 2 + w.val = 8 % 3 + w.val; omega
      | ⟨3, _⟩ => rfl))
  | ⟨_ + 9, hs⟩ => exact absurd hs (by omega)

/-- The summand at `(b, h, w, k, f)`: patch entry `(k / 32, k % 32)` plus the weight at `(k, f)`. -/
theorem summand_apply (x : FVec Ideal S8x32x32x32 .f32) (wt : FVec Ideal S1x1x1x288x64 .f32)
    (b : Fin 8) (h w : Fin 30) (k : Fin 288) (f : Fin 64) :
    val_main_v23 (F := Ideal) x wt (ix5 b h w k f) = term x wt b h w f (hi k) (lo k) := by
  have hb : b.val < 8 := b.isLt
  have hh : h.val < 30 := h.isLt
  have hw : w.val < 30 := w.isLt
  have hk : k.val < 288 := k.isLt
  rw [val_main_v23_apply, val_main_v21_apply, val_main_v20_apply, val_main_v19_apply, val_main_v22_apply]
  have e1 : idx_main_v19 (idx_main_v20 (idx_main_v21 (ix5 b h w k f))) = ix5 b h w (hi k) (lo k) :=
    funext fun a => Fin.ext (match a with
      | ⟨0, _⟩ => by
        show (((b.val * 30 + h.val) * 30 + w.val) * 288 + k.val) / 259200 = b.val
        omega
      | ⟨1, _⟩ => by
        show (((b.val * 30 + h.val) * 30 + w.val) * 288 + k.val) / 8640 % 30 = h.val
        omega
      | ⟨2, _⟩ => by
        show (((b.val * 30 + h.val) * 30 + w.val) * 288 + k.val) / 288 % 30 = w.val
        omega
      | ⟨3, _⟩ => by
        show (((b.val * 30 + h.val) * 30 + w.val) * 288 + k.val) / 32 % 9 = k.val / 32
        omega
      | ⟨4, _⟩ => by
        show (((b.val * 30 + h.val) * 30 + w.val) * 288 + k.val) % 32 = k.val % 32
        omega)
  have e2 : idx_main_v22 (ix5 b h w k f) = ix5 (0 : Fin 1) (0 : Fin 1) (0 : Fin 1) (at32 (hi k) (lo k)) f := by
    rw [at32_hi_lo]
    exact funext fun a => Fin.ext (match a with
      | ⟨0, _⟩ => rfl
      | ⟨1, _⟩ => rfl
      | ⟨2, _⟩ => rfl
      | ⟨3, _⟩ => rfl
      | ⟨4, _⟩ => rfl)
  rw [e1, e2, stack_apply]
  rfl

/-- A witness of the reduction's shape relation in the form that names the inserted coordinate. -/
theorem reduces_patch : S8x30x30x288x64.Reduces [3] S8x30x30x64 := by decide

/-- Patch position `k` inserted into `(b, h, w, f)` is `(b, h, w, k, f)`. -/
theorem lift_patch (b : Fin 8) (h w : Fin 30) (f : Fin 64) (k : Fin (S8x30x30x288x64.size 3)) :
    reduces_patch.lift (ix4 b h w f) k = ix5 b h w (k : Fin 288) f :=
  funext fun a => Fin.ext (match a with
    | ⟨0, _⟩ => rfl
    | ⟨1, _⟩ => rfl
    | ⟨2, _⟩ => rfl
    | ⟨3, _⟩ => rfl
    | ⟨4, _⟩ => rfl)

/-- **The reference's result is `G` of its arguments.** -/
theorem result_eq (x : FVec Ideal S8x32x32x32 .f32) (wt : FVec Ideal S1x1x1x288x64 .f32) (bias : FVec Ideal S64 .f32) :
    val_main_v29 (F := Ideal) x wt bias = G x wt bias := by
  funext i
  obtain ⟨b, h, w, f, rfl⟩ : ∃ (b : Fin 8) (h w : Fin 30) (f : Fin 64), i = ix4 b h w f := ⟨i 0, i 1, i 2, i 3, eq_ix4 i⟩
  rw [G_apply, val_main_v29_apply, val_main_v26_apply, val_main_v28_apply, val_main_v27_apply]
  have emax : val_main_v24 (F := Ideal) x wt (ix4 b h w f)
      = (Finset.univ : Finset (Fin 288)).fold max negInf (fun k => term x wt b h w f (hi k) (lo k)) := by
    unfold val_main_v24
    refine (Host.reduce_eq_fold_single FloatOps.maximumf _ _ reducesTo_S8x30x30x288x64_S8x30x30x64_d3 reduces_patch h_S_ (ix4 b h w f)).trans ?_
    refine Finset.fold_congr (fun k _ => ?_)
    show val_main_v23 (F := Ideal) x wt (reduces_patch.lift (ix4 b h w f) k) = _
    rw [lift_patch]
    exact summand_apply x wt b h w k f
  have emin : val_main_v25 (F := Ideal) x wt (ix4 b h w f)
      = (Finset.univ : Finset (Fin 288)).fold min posInf (fun k => term x wt b h w f (hi k) (lo k)) := by
    unfold val_main_v25
    refine (Host.reduce_eq_fold_single FloatOps.minimumf _ _ reducesTo_S8x30x30x288x64_S8x30x30x64_d3 reduces_patch h_S_ (ix4 b h w f)).trans ?_
    refine Finset.fold_congr (fun k _ => ?_)
    show val_main_v23 (F := Ideal) x wt (reduces_patch.lift (ix4 b h w f) k) = _
    rw [lift_patch]
    exact summand_apply x wt b h w k f
  have ebias : idx_main_v27 (idx_main_v28 (ix4 b h w f)) = ix1 f :=
    funext fun a => Fin.ext (match a with
      | ⟨0, _⟩ => rfl)
  rw [emax, emin, ebias]
  rfl

end Cert.ReferenceIdeal.RefValue

end
-- ==== Proof.lean ====
/-
  The tropical convolution kernel against its jnp reference, over the extended reals.

  Both programs compute, for every batch entry `b`, output pixel `(h, w)` and filter `f`,
      max over k of (patch k + wt (k, f))  −  min over k of (patch k + wt (k, f))  +  bias f,
  `k = 32·s + c` running over the 288 entries of the 3 × 3 window (position `s`, channel `c`), the maximum started
  from the pattern of `-∞` and the minimum from that of `+∞` (`Trop.G`, Proof/TropSpec.lean).

  The reference gathers the window into one axis of length 288 and reduces over it once (Proof/RefValue.lean).  The
  kernel, one grid point per batch entry, reduces over the 32 channels for each of the nine window positions and
  keeps a running maximum and a running minimum of the nine (Proof/KernelShift.lean, Proof/KernelBlock.lean); the
  weights it reads are the host's re-laid copy `w2 (s, f, c) = wt (32·s + c, f)`, and its eight blocks tile the result
  (Proof/KernelArray.lean).  The two groupings agree because a maximum (minimum) is the least upper (greatest lower)
  bound of its terms however they are grouped (Proof/TropFold.lean): only the order of the extended reals is used,
  so the precondition is never opened.  No rewrite was applied when the kernel was idealized, so `preserves` is `True`.
-/
import proofs.«140560_j70489003262695_1_alg».proof.Defs
import proofs.«140560_j70489003262695_1_alg».proof.Proof.Gen.Kernel
import proofs.«140560_j70489003262695_1_alg».proof.Proof.Gen.Kernel.Skeleton
import proofs.«140560_j70489003262695_1_alg».proof.Proof.Gen.Kernel.Launch
import proofs.«140560_j70489003262695_1_alg».proof.Proof.Gen.Kernel.Points
import proofs.«140560_j70489003262695_1_alg».proof.Proof.Gen.Kernel.Frame
import proofs.«140560_j70489003262695_1_alg».proof.Proof.Gen.KernelIdeal
import proofs.«140560_j70489003262695_1_alg».proof.Proof.Gen.KernelIdeal.Skeleton
import proofs.«140560_j70489003262695_1_alg».proof.Proof.Gen.KernelIdeal.Launch
import proofs.«140560_j70489003262695_1_alg».proof.Proof.Gen.KernelIdeal.Points
import proofs.«140560_j70489003262695_1_alg».proof.Proof.Gen.KernelIdeal.Frame
import proofs.«140560_j70489003262695_1_alg».proof.Proof.Gen.ReferenceIdeal
import proofs.«140560_j70489003262695_1_alg».proof.Proof.Gen.Pre_finite_inputs
import proofs.«140560_j70489003262695_1_alg».proof.Proof.Gen.ReferenceIdeal.Run
import proofs.«140560_j70489003262695_1_alg».proof.Proof.Gen.ReferenceIdeal.Read
import proofs.«140560_j70489003262695_1_alg».proof.Proof.KernelArray
import proofs.«140560_j70489003262695_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on `x`, `wt` and `bias`, both programs end with the result array at `Trop.G` of them. -/
theorem algebraic : Cert.algebraic_KernelIdeal_ReferenceIdeal := by
  intro m ρ m' ρ' _ hagree
  refine ⟨fun c => Cert.Trop.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
